-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x2048 .f32) (main_arg1 : FVec F S2048x2048 .f32) (main_arg2 : FVec F S2048x2048 .f32) (main_arg3 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩
abbrev S2048x256 : Shape := ⟨2, ![2048, 256]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  transposes_S256x2048_p1_0_S2048x256 : S256x2048.Transposes [1, 0] S2048x256
  reduces_S256x2048_S256 : S256x2048.Reduces [1] S256
  shapeCasts_S256_S256x1 : S256.ShapeCasts S256x1
  transposes_S256x1_p1_0_S1x256 : S256x1.Transposes [1, 0] S1x256
  broadcasts_S1x256_S512x256 : S1x256.Broadcasts S512x256
  reduces_S512x2048_S512 : S512x2048.Reduces [1] S512
  shapeCasts_S512_S512x1 : S512.ShapeCasts S512x1
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x2048.size a
  hwx0_4 : ∀ i : grid0.Coords, EltTy.bits .f32 = 32 ∨ (Rect.block (s := S8192x2048) S512x256.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibRowProducts.lean ====
/-
  Row products and row sums as a kernel spells them, each read at one entry on the extended reals and generic in the
  extents.

  * A matrix product into the zero accumulator whose right operand is an [N, K] matrix transposed to [K, N]: entry (p, q)
    is the product of row p of the left matrix with row q of the untransposed right one, summed.
  * The sum of each row of an [a, n] matrix (a float lane sum over axis 1), kept as a one-column matrix [a, 1] and then
    - transposed to the one-row matrix [1, a]: entry (0, q) is the sum of row q;
    - broadcast along the rows to [a, b]: entry (p, q) is the sum of row p.
-/
import Idealize.ShloMosaic.Lib.ValueLayout
import proofs.«179576_j64647847739876_1_alg».proof.Proof.LibPlainDot
import proofs.«179576_j64647847739876_1_alg».proof.Proof.LibKeepdims

noncomputable section

namespace Cert.Lib.RowProducts

open Idealize.ShloMosaic Idealize.ShloMosaic.ValueIdx

/-- Rows against rows: a matrix product into the zero accumulator with the right operand an [N, K] matrix transposed,
    at entry (p, q), is the sum over k of a (p, k) * b (q, k). -/
theorem matmul_transposed_rows_apply {M K N : ℕ} {φ₁ φ₂ : FTy} (prec : Option ContractPrecision)
    (a : FVec Ideal ⟨2, ![M, K]⟩ φ₁) (b : FVec Ideal ⟨2, ![N, K]⟩ φ₂)
    (h : (⟨2, ![N, K]⟩ : Shape).Transposes [1, 0] ⟨2, ![K, N]⟩) (p : Fin M) (q : Fin N) :
    FloatOps.matmul (DotDims.plain M K N) prec a (transpose ⟨2, ![K, N]⟩ [1, 0] b h)
        (constant ⟨2, ![M, N]⟩ .f32 0x00000000#32) (ix2 p q)
      = ∑ k : Fin K, a (ix2 p k) * b (ix2 q k) :=
  (Cert.Lib.PlainDot.matmul_zero_apply M K N prec a _ p q).trans
    (Finset.sum_congr rfl fun k _ => congrArg (a (ix2 p k) * ·) (transpose_ix2_apply b h k q))

/-- The row sums of a matrix, kept as a column and transposed to a row: entry (z, q) is the sum of row q. -/
theorem rowSum_asRow_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (z : Fin 1) (q : Fin a) :
    transpose ⟨2, ![1, a]⟩ [1, 0] (shapeCast ⟨2, ![a, 1]⟩ (multiReduction .add [1] ⟨1, ![a]⟩ src acc h hφ hacc) hc) ht (ix2 z q)
      = ∑ k : Fin n, src (ix2 q k) :=
  (transpose_ix2_apply _ ht z q).trans
    ((Cert.Lib.Keepdims.shapeCast_a_a1_apply _ hc q z).trans (Cert.Lib.Keepdims.rowSum_apply src acc h hφ hacc q))

/-- The row sums of a matrix, kept as a column and broadcast along the rows: entry (p, q) is the sum of row p. -/
theorem rowSum_asColumn_apply {a b n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) hc) hb (ix2 p q)
      = ∑ k : Fin n, src (ix2 p k) :=
  (Cert.Lib.Keepdims.broadcastTo_a1_ab_apply _ hb p q).trans
    ((Cert.Lib.Keepdims.shapeCast_a_a1_apply _ hc p 0).trans (Cert.Lib.Keepdims.rowSum_apply src acc h hφ hacc p))

end Cert.Lib.RowProducts

end
-- ==== Proof.EnvelopeSpec.lean ====
/-
  The layer both programs compute, one output entry at a time, on the extended reals.

  For one batch row x, and one output unit's weight row w, centre row c and width s (all rows of the same length):
    the linear part              l  = <x, w> - <w, c>                         (the bias is minus the row product of w and c)
    the squared distance         d2 = max (<x, x> + <c, c> - 2 <x, c>, 0)     (the expansion of |x - c|^2, clamped at 0)
    the Gaussian envelope        g  = exp (- d2 / (s * s))
    the entry                    l * g.
  The factor 2 is kept as the float word both programs print (the same word on both sides, so never evaluated). No
  law that needs finite operands is used anywhere: the two programs differ only in how they spell a negation (the
  kernel subtracts from the zero word) and in the zero word their row sums start from.
-/
import Idealize.ShloMosaic.PureOps.Ideal.Laws
import Idealize.ShloMosaic.Lib.ValueIdx

noncomputable section

namespace Cert.Envelope

open Idealize.ShloMosaic Idealize.ShloMosaic.ValueIdx

/-- The product of two rows, summed: <u, v> on the extended reals. -/
def rowDot {n : ℕ} (u v : Fin n → EReal) : EReal := ∑ k : Fin n, u k * v k

/-- One entry of the layer's output, from the batch row, the unit's weight and centre rows and its width. -/
def entry {n : ℕ} (x w c : Fin n → EReal) (s : EReal) : EReal :=
  (rowDot x w + -(rowDot w c))
    * Ideal.exp (Ideal.div (-(max ((rowDot x x + rowDot c c) - Ideal.ofBits .f32 0x40000000#32 * rowDot x c) 0)) (s * s))

/-- The entry depends on its rows only through their values. -/
theorem entry_congr {n : ℕ} {x x' w w' c c' : Fin n → EReal} {s s' : EReal} (hx : ∀ k, x k = x' k) (hw : ∀ k, w k = w' k)
    (hc : ∀ k, c k = c' k) (hs : s = s') : entry x w c s = entry x' w' c' s' := by
  rw [show x = x' from funext hx, show w = w' from funext hw, show c = c' from funext hc, hs]

/-- The whole layer over 8192 batch rows of length 2048 and 2048 output units: entry (b, o) from batch row b and the
    weight row, centre row and width of unit o. -/
def layer (x : (⟨2, ![8192, 2048]⟩ : Shape).Idx → EReal) (w c : (⟨2, ![2048, 2048]⟩ : Shape).Idx → EReal)
    (s : (⟨1, ![2048]⟩ : Shape).Idx → EReal) : (⟨2, ![8192, 2048]⟩ : Shape).Idx → EReal :=
  fun i => entry (fun k : Fin 2048 => x (ix2 (i 0) k)) (fun k : Fin 2048 => w (ix2 (i 1) k))
    (fun k : Fin 2048 => c (ix2 (i 1) k)) (s (ix1 (i 1)))

/-- Subtracting from the float zero word is negation, on every extended real. -/
theorem zeroWord_sub (y : EReal) : Ideal.ofBits .f32 0x00000000#32 - y = -y := by
  rw [Ideal.ofBits_zero_f32, zero_sub]

/-- A sum started from the float zero word is the sum. -/
theorem zeroWord_add (y : EReal) : Ideal.ofBits .f32 0x00000000#32 + y = y := by
  rw [Ideal.ofBits_zero_f32, zero_add]

end Cert.Envelope

end
-- ==== Proof.KernelEntry.lean ====
/-
  What one grid point of the kernel leaves in its output block, entry by entry, on the extended reals.

  At a grid point the body holds a 512-row block x of the batch, the 256-row blocks w and c of the weights and the
  centres that belong to the point's 256 output units, and those units' widths as one row s. Entry (p, q) of the block
  it stores is the layer's entry for batch row p and unit q:
    (<x_p, w_q> - <w_q, c_q>) * exp (- max (<x_p, x_p> + <c_q, c_q> - 2 <x_p, c_q>, 0) / (s_q * s_q)).
  The two matrix products run over bf16-narrowed copies, which at the extended reals are the operands themselves; each
  takes the transposed block on the right, so it pairs rows with rows. The three row sums are kept as columns; the two
  over the units' rows are turned into rows and broadcast down the block, the one over the batch rows is broadcast
  across it. Both negations are spelt as a subtraction from the zero word.
-/
import proofs.«179576_j64647847739876_1_alg».proof.Proof.Gen.KernelIdeal.Frame
import proofs.«179576_j64647847739876_1_alg».proof.Proof.LibRowProducts
import proofs.«179576_j64647847739876_1_alg».proof.Proof.EnvelopeSpec
import Idealize.ShloMosaic.Lib.Pipeline.Value

noncomputable section

namespace Cert.KernelIdeal.Entry

open Cert.KernelIdeal Cert.KernelIdeal.Gen Idealize.ShloMosaic Idealize.ShloMosaic.ValueIdx
open Cert.Envelope Cert.Lib.RowProducts

/-- The body's loads and its one store start at the origin of their buffers. -/
theorem origin : (![0, 0] : Fin 2 → Nat) = fun _ => 0 := funext fun a => by fin_cases a <;> rfl

/-- The one store covers the output block whole and every load reads a whole block, so what the body leaves is the
    stored value of the blocks themselves: the linear part times the envelope. -/
theorem stored_eq {F : FTy → Type} [FloatOps F] (x0 : Vec F S512x2048 .f32) (x1 x2 : Vec F S256x2048 .f32)
    (x3 : Vec F S1x256 .f32) :
    out0_4 x0 x1 x2 x3 = k0_pay1 (k0_pay3 x0 x1 x2) (k0_pay4 x0 x2 x3) := by
  unfold out0_4
  rw [View.canon_unit_zero origin]
  simp only [View.ld_unit_zero (S := S512x2048) origin, View.ld_unit_zero (S := S256x2048) origin,
    View.ld_unit_zero (S := S1x256) origin]

/-- The linear part at (p, q): row p of x against row q of w, minus row q of w against row q of c. -/
theorem linear_apply (x0 : FVec Ideal S512x2048 .f32) (x1 x2 : FVec Ideal S256x2048 .f32) (p : Fin 512) (q : Fin 256) :
    k0_pay3 (F := Ideal) x0 x1 x2 (ix2 p q)
      = rowDot (fun k => x0 (ix2 p k)) (fun k => x1 (ix2 q k))
        + -(rowDot (fun k => x1 (ix2 q k)) (fun k => x2 (ix2 q k))) := by
  unfold k0_pay3 k0_pay2
  refine congrArg₂ (· + ·) ?_ ?_
  · exact matmul_transposed_rows_apply none _ _ _ p q
  · refine (broadcastTo_1b_ab_apply _ _ p q).trans ?_
    refine (zeroWord_sub _).trans (congrArg Neg.neg ?_)
    exact rowSum_asRow_apply (mulf x1 x2) _ _ _ _ _ _ 0 q

/-- The envelope at (p, q): exp of minus the clamped expanded squared distance of row p of x from row q of c, over
    the squared width of unit q. -/
theorem envelope_apply (x0 : FVec Ideal S512x2048 .f32) (x2 : FVec Ideal S256x2048 .f32) (x3 : FVec Ideal S1x256 .f32)
    (p : Fin 512) (q : Fin 256) :
    k0_pay4 (F := Ideal) x0 x2 x3 (ix2 p q)
      = Ideal.exp (Ideal.div
          (-(max ((rowDot (fun k => x0 (ix2 p k)) (fun k => x0 (ix2 p k))
                    + rowDot (fun k => x2 (ix2 q k)) (fun k => x2 (ix2 q k)))
                  - Ideal.ofBits .f32 0x40000000#32 * rowDot (fun k => x0 (ix2 p k)) (fun k => x2 (ix2 q k))) 0))
          (x3 (ix2 0 q) * x3 (ix2 0 q))) := by
  unfold k0_pay4 k0_pay2
  refine congrArg Ideal.exp (congrArg₂ Ideal.div ?_ ?_)
  · refine (zeroWord_sub _).trans (congrArg Neg.neg ?_)
    refine congrArg₂ max ?_ Ideal.ofBits_zero_f32
    refine congrArg₂ (· - ·) (congrArg₂ (· + ·) ?_ ?_) (congrArg (Ideal.ofBits .f32 0x40000000#32 * ·) ?_)
    · exact rowSum_asColumn_apply (mulf x0 x0) _ _ _ _ _ _ p q
    · refine (broadcastTo_1b_ab_apply _ _ p q).trans ?_
      exact rowSum_asRow_apply (mulf x2 x2) _ _ _ _ _ _ 0 q
    · exact matmul_transposed_rows_apply none _ _ _ p q
  · refine (broadcastTo_1b_ab_apply _ _ p q).trans ?_
    show (shapeCast S1x256 x3 shapeCasts_S1x256_S1x256) (ix2 0 q) * (shapeCast S1x256 x3 shapeCasts_S1x256_S1x256) (ix2 0 q) = _
    rw [shapeCast_self]

/-- Entry (p, q) of the block the body leaves is the layer's entry for row p of x and rows q of w, c and s. -/
theorem block_entry (x0 : FVec Ideal S512x2048 .f32) (x1 x2 : FVec Ideal S256x2048 .f32) (x3 : FVec Ideal S1x256 .f32)
    (p : Fin 512) (q : Fin 256) :
    out0_4 (F := Ideal) x0 x1 x2 x3 (ix2 p q)
      = entry (fun k => x0 (ix2 p k)) (fun k => x1 (ix2 q k)) (fun k => x2 (ix2 q k)) (x3 (ix2 0 q)) := by
  rw [stored_eq]
  show k0_pay3 (F := Ideal) x0 x1 x2 (ix2 p q) * k0_pay4 (F := Ideal) x0 x2 x3 (ix2 p q) = _
  rw [linear_apply, envelope_apply]
  rfl

end Cert.KernelIdeal.Entry

end
-- ==== Proof.KernelArray.lean ====
/-
  The kernel's whole result array on the extended reals: the layer of the four argument arrays.

  The grid has 16 x 8 points; point (i, j) holds batch rows 512 i .. 512 i + 511 (all 2048 columns), the weight and
  centre rows of units 256 j .. 256 j + 255 (all columns), those units' widths, and writes rows 512 i .. and columns
  256 j .. of the result. So entry (p, q) of the block it writes is the layer's entry (512 i + p, 256 j + q) of the
  whole arrays, and the 128 blocks tile the result: entry (b, o) lies in the block of point (b / 512, o / 256).
  The widths reach the kernel as the length-2048 vector viewed as one row; that view reads the vector at its column.
-/
import proofs.«179576_j64647847739876_1_alg».proof.Proof.Gen.KernelIdeal.Value
import proofs.«179576_j64647847739876_1_alg».proof.Proof.KernelEntry
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Envelope
open Idealize.ShloMosaic.Pipeline (Dat)

variable (m : (ℓ : Loc nD τ sig) → Buf (Elt Ideal) ℓ) (ρ : Dev nD → PrngReg)

/-- The layer of core c's four argument arrays as launched. -/
abbrev result (c : Dev nD) : S8192x2048.Idx → EReal :=
  layer (m ((c : Thread nD τ).loc main_arg0)) (m ((c : Thread nD τ).loc main_arg1)) (m ((c : Thread nD τ).loc main_arg2))
    (m ((c : Thread nD τ).loc main_arg3))

/-- The printed index maps, decided over the 128 grid points: the batch block moves with the result block's rows, the
    weight and centre blocks and the widths' block with its columns, every other block index is 0, and the result's
    block indices stay inside 16 x 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every one of the 16 x 8 result blocks is some point's. -/
theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-- The widths as the region finds them: the length-2048 vector viewed as one row. -/
theorem widths_row (c : Dev nD) :
    (V m c main_v0 : S1x2048.Idx → EReal)
      = shapeCast S1x2048 (m ((c : Thread nD τ).loc main_arg3)) shapeCasts_S2048_S1x2048 := by
  dsimp only [Gen.V, Gen.hostOps0]; after_results; rfl

/-- Row p of the batch block at point t is the batch row the result block's row p stands in. -/
theorem batch_block (c : Dev nD) (t : Fin cfg0.N) (p : Fin 512) (q : Fin 256) (k : Fin 2048) :
    iblk m c 0 t (ix2 p k)
      = m ((c : Thread nD τ).loc main_arg0) (ix2 ((((cfg0.win 4).blk t).view.emb (ix2 p q)) 0) k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 512 + 1 * p.val = win0_4.index t (0 : Fin 2) * 512 + 1 * p.val; omega
  | ⟨1, _⟩ => show win0_0.index t (1 : Fin 2) * 2048 + 1 * k.val = k.val; omega

/-- Row q of the weight block at point t is the weight row of the unit the result block's column q stands in. -/
theorem weight_block (c : Dev nD) (t : Fin cfg0.N) (p : Fin 512) (q : Fin 256) (k : Fin 2048) :
    iblk m c 1 t (ix2 q k)
      = m ((c : Thread nD τ).loc main_arg1) (ix2 ((((cfg0.win 4).blk t).view.emb (ix2 p q)) 1) k) := by
  show V m c main_arg1 (((cfg0.win 1).blk t).view.emb (ix2 q k)) = _
  rw [V_main_arg1]
  refine congrArg _ (funext fun a => Fin.ext ?_)
  obtain ⟨-, -, e2, e3, -⟩ := idx_facts t
  match a with
  | ⟨0, _⟩ => show win0_1.index t (0 : Fin 2) * 256 + 1 * q.val = win0_4.index t (1 : Fin 2) * 256 + 1 * q.val; omega
  | ⟨1, _⟩ => show win0_1.index t (1 : Fin 2) * 2048 + 1 * k.val = k.val; omega

/-- Row q of the centre block at point t is the centre row of that unit. -/
theorem centre_block (c : Dev nD) (t : Fin cfg0.N) (p : Fin 512) (q : Fin 256) (k : Fin 2048) :
    iblk m c 2 t (ix2 q k)
      = m ((c : Thread nD τ).loc main_arg2) (ix2 ((((cfg0.win 4).blk t).view.emb (ix2 p q)) 1) k) := by
  show V m c main_arg2 (((cfg0.win 2).blk t).view.emb (ix2 q k)) = _
  rw [V_main_arg2]
  refine congrArg _ (funext fun a => Fin.ext ?_)
  obtain ⟨-, -, -, -, e4, e5, -⟩ := idx_facts t
  match a with
  | ⟨0, _⟩ => show win0_2.index t (0 : Fin 2) * 256 + 1 * q.val = win0_4.index t (1 : Fin 2) * 256 + 1 * q.val; omega
  | ⟨1, _⟩ => show win0_2.index t (1 : Fin 2) * 2048 + 1 * k.val = k.val; omega

/-- Column q of the widths' block at point t is the width of that unit. -/
theorem width_block (c : Dev nD) (t : Fin cfg0.N) (p : Fin 512) (q : Fin 256) :
    iblk m c 3 t (ix2 (0 : Fin 1) q)
      = m ((c : Thread nD τ).loc main_arg3) (ix1 ((((cfg0.win 4).blk t).view.emb (ix2 p q)) 1)) := by
  show V m c main_v0 (((cfg0.win 3).blk t).view.emb (ix2 (0 : Fin 1) q)) = _
  rw [widths_row]
  refine shapeCast_apply _ _ _ _ ?_
  have h1 := Shape.rowMajor_val_one (d := ![2048]) (ix1 ((((cfg0.win 4).blk t).view.emb (ix2 p q)) 1))
  have h2 := Shape.rowMajor_val_two (d := ![1, 2048]) (((cfg0.win 3).blk t).view.emb (ix2 (0 : Fin 1) q))
  refine h1.trans (Eq.trans ?_ h2.symm)
  obtain ⟨-, -, -, -, -, -, e6, e7, -⟩ := idx_facts t
  show win0_4.index t (1 : Fin 2) * 256 + 1 * q.val
    = (win0_3.index t (0 : Fin 2) * 1 + 1 * 0) * 2048 + (win0_3.index t (1 : Fin 2) * 256 + 1 * q.val)
  omega

/-- What point t writes back is block t of the layer of the argument arrays. -/
theorem flushed_eq (c : Dev nD) (t : Fin cfg0.N) :
    (dats m 0 c).flushed 4 t = ((cfg0.win 4).blk t).view.read (Elt Ideal) (result m c) := by
  rw [Value.flushed4]
  funext y
  obtain ⟨p, q, rfl⟩ : ∃ (p : Fin 512) (q : Fin 256), y = ix2 p q := ⟨y 0, y 1, eq_ix2 y⟩
  show out0_4 (F := Ideal) (iblk m c 0 t) (iblk m c 1 t) (iblk m c 2 t) (iblk m c 3 t) (ix2 p q)
    = result m c (((cfg0.win 4).blk t).view.emb (ix2 p q))
  refine (Entry.block_entry (iblk m c 0 t) (iblk m c 1 t) (iblk m c 2 t) (iblk m c 3 t) p q).trans ?_
  exact entry_congr (fun k => batch_block m c t p q k) (fun k => weight_block m c t p q k)
    (fun k => centre_block m c t p q k) (width_block m c t p q)

/-- An index of the result is in point t's block iff each coordinate is in the block's range on its axis. -/
theorem mem_blk (t : Fin cfg0.N) (i : S8192x2048.Idx) :
    i ∈ ((cfg0.win 4).blk t).view.set
      ↔ ∀ a : Fin 2, win0_4.index t a * S512x256.size a ≤ (i a).val
          ∧ (i a).val < win0_4.index t a * S512x256.size a + S512x256.size a := by
  show i ∈ ((View.whole main_v1).slice (win0_4.rect t)).set ↔ _
  rw [View.set_slice_whole, Rect.mem_set_unit]
  exact Iff.rfl

/-- The blocks tile the result: entry (b, o) is in the block of the point with block indices (b / 512, o / 256). -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-- The result array after the run is the layer of the argument arrays. -/
theorem final (c : Dev nD) : (dats m 0 c).arrAt 4 cfg0.N = result m c :=
  (dats m 0 c).arrAt_eq_of_cover 4 (result m c) (fun t _ => flushed_eq m c t) cover

/-- Every weakly fair execution of the kernel's program ends with the result array at the layer of the argument arrays
    and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.ReferenceLayer.lean ====
/-
  The reference's result on the extended reals: the layer of its four argument arrays.

  The reference computes, over the whole arrays at once: the row products of the weights with the centres, negated, as
  the bias; the batch times the transposed weights plus the bias; the row products of the batch with itself (kept as a
  column) and of the centres with themselves (as a row), added, minus twice the batch times the transposed centres,
  clamped below at 0; minus that over the squared widths (as a row), exponentiated; and the product of the two. Read at
  entry (b, o) each stage is a stage of the layer's entry for batch row b and unit o: each host row sum starts from the
  zero word, each contraction pairs row b of the batch with row o of the other matrix, and each broadcast forgets the
  coordinate its operand does not have.
-/
import proofs.«179576_j64647847739876_1_alg».proof.Proof.Gen.ReferenceIdeal.Read
import proofs.«179576_j64647847739876_1_alg».proof.Proof.EnvelopeSpec

noncomputable section

namespace Cert.ReferenceIdeal.Whole

open Cert.ReferenceIdeal Cert.ReferenceIdeal.Gen Cert.ReferenceIdeal.Read
open Idealize.ShloMosaic Idealize.ShloMosaic.ValueIdx Cert.Envelope

variable (x0 : FVec Ideal S8192x2048 .f32) (x1 x2 : FVec Ideal S2048x2048 .f32) (x3 : FVec Ideal S2048 .f32)

/-- The host's sum over row o of the products of the weights with the centres is that row product. -/
theorem weightCentre_apply (o : Fin 2048) :
    val_main_v1 (F := Ideal) x1 x2 (ix1 o) = rowDot (fun k => x1 (ix2 o k)) (fun k => x2 (ix2 o k)) := by
  rw [val_main_v1_apply]
  refine (zeroWord_add _).trans (Finset.sum_congr rfl fun k _ => ?_)
  have e : idx_main_v1 (ix1 o) k = ix2 o k :=
    funext fun a => Fin.ext (by match a with | ⟨0, _⟩ => rfl | ⟨1, _⟩ => rfl)
  exact (congrArg (val_main_v0 (F := Ideal) x1 x2) e).trans rfl

/-- The host's sum over row b of the squares of the batch. -/
theorem batchSq_apply (b : Fin 8192) :
    val_main_v8 (F := Ideal) x0 (ix1 b) = rowDot (fun k => x0 (ix2 b k)) (fun k => x0 (ix2 b k)) := by
  rw [val_main_v8_apply]
  refine (zeroWord_add _).trans (Finset.sum_congr rfl fun k _ => ?_)
  have e : idx_main_v8 (ix1 b) k = ix2 b k :=
    funext fun a => Fin.ext (by match a with | ⟨0, _⟩ => rfl | ⟨1, _⟩ => rfl)
  exact (congrArg (val_main_v7 (F := Ideal) x0) e).trans rfl

/-- The host's sum over row o of the squares of the centres. -/
theorem centreSq_apply (o : Fin 2048) :
    val_main_v11 (F := Ideal) x2 (ix1 o) = rowDot (fun k => x2 (ix2 o k)) (fun k => x2 (ix2 o k)) := by
  rw [val_main_v11_apply]
  refine (zeroWord_add _).trans (Finset.sum_congr rfl fun k _ => ?_)
  have e : idx_main_v11 (ix1 o) k = ix2 o k :=
    funext fun a => Fin.ext (by match a with | ⟨0, _⟩ => rfl | ⟨1, _⟩ => rfl)
  exact (congrArg (val_main_v10 (F := Ideal) x2) e).trans rfl

/-- The batch against the weights, contracted on both last axes: row b against row o. -/
theorem batchWeight_apply (b : Fin 8192) (o : Fin 2048) :
    val_main_v3 (F := Ideal) x0 x1 (ix2 b o) = rowDot (fun k => x0 (ix2 b k)) (fun k => x1 (ix2 o k)) := by
  rw [val_main_v3_apply]
  refine Finset.sum_congr rfl fun k _ => ?_
  have el : lidx_main_v3 (ix2 b o) k = ix2 b k :=
    funext fun a => Fin.ext (by match a with | ⟨0, _⟩ => rfl | ⟨1, _⟩ => rfl)
  have er : ridx_main_v3 (ix2 b o) k = ix2 o k :=
    funext fun a => Fin.ext (by match a with | ⟨0, _⟩ => rfl | ⟨1, _⟩ => rfl)
  exact congrArg₂ (· * ·) (congrArg x0 el) (congrArg x1 er)

/-- The batch against the centres: row b against row o. -/
theorem batchCentre_apply (b : Fin 8192) (o : Fin 2048) :
    val_main_v12 (F := Ideal) x0 x2 (ix2 b o) = rowDot (fun k => x0 (ix2 b k)) (fun k => x2 (ix2 o k)) := by
  rw [val_main_v12_apply]
  refine Finset.sum_congr rfl fun k _ => ?_
  have el : lidx_main_v12 (ix2 b o) k = ix2 b k :=
    funext fun a => Fin.ext (by match a with | ⟨0, _⟩ => rfl | ⟨1, _⟩ => rfl)
  have er : ridx_main_v12 (ix2 b o) k = ix2 o k :=
    funext fun a => Fin.ext (by match a with | ⟨0, _⟩ => rfl | ⟨1, _⟩ => rfl)
  exact congrArg₂ (· * ·) (congrArg x0 el) (congrArg x2 er)

/-- The bias, broadcast over the batch: at (b, o) minus the row product of unit o's weights and centres. -/
theorem bias_apply (b : Fin 8192) (o : Fin 2048) :
    val_main_v5 (F := Ideal) x1 x2 (ix2 b o) = -(rowDot (fun k => x1 (ix2 o k)) (fun k => x2 (ix2 o k))) := by
  refine (val_main_v5_apply (F := Ideal) x1 x2 (ix2 b o)).trans
    ((val_main_v4_apply (F := Ideal) x1 x2 (idx_main_v5 (ix2 b o))).trans ?_)
  have e : idx_main_v4 (idx_main_v5 (ix2 b o)) = ix1 o :=
    funext fun a => Fin.ext (by match a with | ⟨0, _⟩ => rfl)
  rw [e]
  exact congrArg Neg.neg (weightCentre_apply x1 x2 o)

/-- The batch rows' squared lengths, broadcast across the units: at (b, o) that of row b. -/
theorem batchSq_across_apply (b : Fin 8192) (o : Fin 2048) :
    val_main_v14 (F := Ideal) x0 (ix2 b o) = rowDot (fun k => x0 (ix2 b k)) (fun k => x0 (ix2 b k)) := by
  refine (val_main_v14_apply (F := Ideal) x0 (ix2 b o)).trans
    ((val_main_v9_apply (F := Ideal) x0 (idx_main_v14 (ix2 b o))).trans ?_)
  have e : idx_main_v9 (idx_main_v14 (ix2 b o)) = ix1 b :=
    funext fun a => Fin.ext (by match a with | ⟨0, _⟩ => rfl)
  rw [e]
  exact batchSq_apply x0 b

/-- The centres' squared lengths, broadcast down the batch: at (b, o) that of unit o. -/
theorem centreSq_down_apply (b : Fin 8192) (o : Fin 2048) :
    val_main_v15 (F := Ideal) x2 (ix2 b o) = rowDot (fun k => x2 (ix2 o k)) (fun k => x2 (ix2 o k)) := by
  refine (val_main_v15_apply (F := Ideal) x2 (ix2 b o)).trans
    ((val_main_v13_apply (F := Ideal) x2 (idx_main_v15 (ix2 b o))).trans ?_)
  have e : idx_main_v13 (idx_main_v15 (ix2 b o)) = ix1 o :=
    funext fun a => Fin.ext (by match a with | ⟨0, _⟩ => rfl)
  rw [e]
  exact centreSq_apply x2 o

/-- The squared widths, broadcast down the batch: at (b, o) that of unit o. -/
theorem widthSq_apply (b : Fin 8192) (o : Fin 2048) :
    val_main_v25 (F := Ideal) x3 (ix2 b o) = x3 (ix1 o) * x3 (ix1 o) := by
  refine (val_main_v25_apply (F := Ideal) x3 (ix2 b o)).trans
    ((val_main_v24_apply (F := Ideal) x3 (idx_main_v25 (ix2 b o))).trans ?_)
  have e : idx_main_v24 (idx_main_v25 (ix2 b o)) = ix1 o :=
    funext fun a => Fin.ext (by match a with | ⟨0, _⟩ => rfl)
  rw [e]
  rfl

/-- The factor 2, broadcast: the float word for 2 everywhere. -/
theorem two_apply (i : S8192x2048.Idx) : val_main_v17 (F := Ideal) i = Ideal.ofBits .f32 0x40000000#32 :=
  (val_main_v17_apply (F := Ideal) i).trans rfl

/-- The clamp's bound, broadcast: 0 everywhere. -/
theorem floor_apply (i : S8192x2048.Idx) : val_main_v20 (F := Ideal) i = 0 :=
  (val_main_v20_apply (F := Ideal) i).trans Ideal.ofBits_zero_f32

/-- Entry (b, o) of the reference's result is the layer's entry for batch row b and unit o. -/
theorem result_entry (b : Fin 8192) (o : Fin 2048) :
    val_main_v28 (F := Ideal) x0 x1 x2 x3 (ix2 b o)
      = entry (fun k => x0 (ix2 b k)) (fun k => x1 (ix2 o k)) (fun k => x2 (ix2 o k)) (x3 (ix1 o)) := by
  show (val_main_v3 (F := Ideal) x0 x1 (ix2 b o) + val_main_v5 (F := Ideal) x1 x2 (ix2 b o))
      * Ideal.exp (Ideal.div
          (-(max ((val_main_v14 (F := Ideal) x0 (ix2 b o) + val_main_v15 (F := Ideal) x2 (ix2 b o))
                    - val_main_v17 (F := Ideal) (ix2 b o) * val_main_v12 (F := Ideal) x0 x2 (ix2 b o))
                (val_main_v20 (F := Ideal) (ix2 b o))))
          (val_main_v25 (F := Ideal) x3 (ix2 b o))) = _
  rw [batchWeight_apply, bias_apply, batchSq_across_apply, centreSq_down_apply, two_apply, batchCentre_apply,
    floor_apply, widthSq_apply]
  rfl

/-- The reference's result is the layer of its argument arrays. -/
theorem result_eq : val_main_v28 (F := Ideal) x0 x1 x2 x3 = layer x0 x1 x2 x3 := by
  funext i
  obtain ⟨b, o, rfl⟩ : ∃ (b : Fin 8192) (o : Fin 2048), i = ix2 b o := ⟨i 0, i 1, eq_ix2 i⟩
  exact result_entry x0 x1 x2 x3 b o

end Cert.ReferenceIdeal.Whole

end
-- ==== Proof.lean ====
/-
  A linear layer modulated by a Gaussian envelope: for a batch x [8192, 2048], weights w and centres c [2048, 2048] and
  widths s [2048], entry (b, o) of the result is
    (<x_b, w_o> - <w_o, c_o>) * exp (- max (<x_b, x_b> + <c_o, c_o> - 2 <x_b, c_o>, 0) / (s_o * s_o)).
  The kernel computes it block by block over a 16 x 8 grid, with both matrix products over bf16-narrowed operands and the
  row sums carried as columns and rows; the reference computes it over the whole arrays. On the extended reals both are
  the same function of the four arrays, with no rearrangement of any sum or product, so the inputs' finiteness is never
  used: the narrowing is the identity there, the two negations the kernel spells as a subtraction from zero are
  negations, and a row sum started from the zero word is the sum.

  The kernel's side: one block's entry (Proof/KernelEntry.lean), then the blocks laid over the result array
  (Proof/KernelArray.lean). The reference's side: its stages read at one entry (Proof/ReferenceLayer.lean). Both end at
  `Cert.Envelope.layer` of the argument arrays (Proof/EnvelopeSpec.lean). The idealization rewrote nothing, so it
  preserves the kernel trivially. The three frames are the programs' runs with the results dropped.
-/
import proofs.«179576_j64647847739876_1_alg».proof.Defs
import proofs.«179576_j64647847739876_1_alg».proof.Proof.Gen.Kernel
import proofs.«179576_j64647847739876_1_alg».proof.Proof.Gen.Kernel.Skeleton
import proofs.«179576_j64647847739876_1_alg».proof.Proof.Gen.Kernel.Launch
import proofs.«179576_j64647847739876_1_alg».proof.Proof.Gen.Kernel.Points
import proofs.«179576_j64647847739876_1_alg».proof.Proof.Gen.Kernel.Frame
import proofs.«179576_j64647847739876_1_alg».proof.Proof.Gen.KernelIdeal
import proofs.«179576_j64647847739876_1_alg».proof.Proof.Gen.KernelIdeal.Skeleton
import proofs.«179576_j64647847739876_1_alg».proof.Proof.Gen.KernelIdeal.Launch
import proofs.«179576_j64647847739876_1_alg».proof.Proof.Gen.KernelIdeal.Points
import proofs.«179576_j64647847739876_1_alg».proof.Proof.Gen.KernelIdeal.Frame
import proofs.«179576_j64647847739876_1_alg».proof.Proof.Gen.ReferenceIdeal
import proofs.«179576_j64647847739876_1_alg».proof.Proof.Gen.Pre_finite_inputs
import proofs.«179576_j64647847739876_1_alg».proof.Proof.Gen.KernelIdeal.Value
import proofs.«179576_j64647847739876_1_alg».proof.Proof.Gen.ReferenceIdeal.Run
import proofs.«179576_j64647847739876_1_alg».proof.Proof.Gen.ReferenceIdeal.Read
import proofs.«179576_j64647847739876_1_alg».proof.Proof.KernelArray
import proofs.«179576_j64647847739876_1_alg».proof.Proof.ReferenceLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel ends with its result at the layer of its arguments and the
    reference with its result at the layer of its own, which are the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Whole.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
